-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S256x257 : Shape := ⟨2, ![256, 257]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  bcast_S_S256x257 : S_.BroadcastsInDim S256x257 (![] : Fin 0 → Fin S256x257.rank)
  reducesTo_S256x257_S_d0_1 : S256x257.ReducesTo [0, 1] S_

variable [Facts]

def fn {F : FTy → Type} [FloatOps F] (main_arg0 : FVec F S2048x256 .f32) (main_arg1 : FVec F S256x257 .f32) (main_arg2 : FVec F S256x257 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S256x257 .f32 := Host.absf main_arg1
  let main_cst_0 : FVec F S_ .f32 := constant S_ .f32 0x7F800000#32
  let main_v5 : FVec F S256x257 .f32 := broadcastInDim S256x257 ![] bcast_S_S256x257 main_cst_0
  let main_v6 : IVec S256x257 1 := cmpf .olt main_v4 main_v5
  let main_c_1 : IVec S_ 1 := constantI S_ 1 1#1
  let main_v7 : IVec S_ 1 := (fun x v => Host.reduce IntOp.andi x v reducesTo_S256x257_S_d0_1 h_S_) main_v6 main_c_1
  let main_v8 : IVec S_ 1 := andi main_v3 main_v7
  let main_v9 : FVec F S256x257 .f32 := Host.absf main_arg2
  let main_cst_2 : FVec F S_ .f32 := constant S_ .f32 0x7F800000#32
  let main_v10 : FVec F S256x257 .f32 := broadcastInDim S256x257 ![] bcast_S_S256x257 main_cst_2
  let main_v11 : IVec S256x257 1 := cmpf .olt main_v9 main_v10
  let main_c_3 : IVec S_ 1 := constantI S_ 1 1#1
  let main_v12 : IVec S_ 1 := (fun x v => Host.reduce IntOp.andi x v reducesTo_S256x257_S_d0_1 h_S_) main_v11 main_c_3
  let main_v13 : IVec S_ 1 := andi main_v8 main_v12
  main_v13
-- ==== Kernel.lean ====
abbrev S2048x256 : Shape := ⟨2, ![2048, 256]⟩
abbrev S256x257 : Shape := ⟨2, ![256, 257]⟩
abbrev S_ : Shape := ⟨0, ![]⟩
abbrev S2048x1 : Shape := ⟨2, ![2048, 1]⟩
abbrev S2048x257 : Shape := ⟨2, ![2048, 257]⟩
abbrev S16x257 : Shape := ⟨2, ![16, 257]⟩
abbrev S16x256 : Shape := ⟨2, ![16, 256]⟩
abbrev S1x256x257 : Shape := ⟨3, ![1, 256, 257]⟩
abbrev S16x1x257 : Shape := ⟨3, ![16, 1, 257]⟩
abbrev S16x256x257 : Shape := ⟨3, ![16, 256, 257]⟩

abbrev nBuf : Space → Nat
  | .hbm => 7
  | .vmem => 6
  | .smem => 0
  | _ => 0

abbrev bufTy : (tb : Table) → Fin (tcTables nBuf tb) → BufTy
  | .hbm, ⟨0, _⟩ => ⟨S2048x256, .f32⟩
  | .hbm, ⟨1, _⟩ => ⟨S256x257, .f32⟩
  | .hbm, ⟨2, _⟩ => ⟨S256x257, .f32⟩
  | .hbm, ⟨3, _⟩ => ⟨S_, .f32⟩
  | .hbm, ⟨4, _⟩ => ⟨S2048x1, .f32⟩
  | .hbm, ⟨5, _⟩ => ⟨S2048x257, .f32⟩
  | .hbm, ⟨6, _⟩ => ⟨S2048x256, .f32⟩
  | .local _ .vmem, ⟨0, _⟩ => ⟨S16x257, .f32⟩
  | .local _ .vmem, ⟨1, _⟩ => ⟨S16x257, .f32⟩
  | .local _ .vmem, ⟨2, _⟩ => ⟨S256x257, .f32⟩
  | .local _ .vmem, ⟨3, _⟩ => ⟨S256x257, .f32⟩
  | .local _ .vmem, ⟨4, _⟩ => ⟨S16x256, .f32⟩
  | .local _ .vmem, ⟨5, _⟩ => ⟨S16x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x257 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x257 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x257 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S2048x1 : S_.BroadcastsInDim S2048x1 (![] : Fin 0 → Fin S2048x1.rank)
  concatenates_S2048x256_S2048x1_S2048x257_d1 : Shape.Concatenates [S2048x256, S2048x1] S2048x257 1
  inb_S16x257_S16x257_0_0 : ∀ a, (![0, 0] : Fin 2 → Nat) a + S16x257.size a ≤ S16x257.size a
  h_S16x257 : 0 < S16x257.numel
  shapeCasts_S16x257_S16x257 : S16x257.ShapeCasts S16x257
  inb_S256x257_S256x257_0_0 : ∀ a, (![0, 0] : Fin 2 → Nat) a + S256x257.size a ≤ S256x257.size a
  h_S256x257 : 0 < S256x257.numel
  shapeCasts_S256x257_S1x256x257 : S256x257.ShapeCasts S1x256x257
  shapeCasts_S16x257_S16x1x257 : S16x257.ShapeCasts S16x1x257
  broadcasts_S1x256x257_S16x256x257 : S1x256x257.Broadcasts S16x256x257
  broadcasts_S16x1x257_S16x256x257 : S16x1x257.Broadcasts S16x256x257
  reduces_S16x256x257_S16x256 : S16x256x257.Reduces [2] S16x256
  inb_S16x256_S16x256_0_0 : ∀ a, (![0, 0] : Fin 2 → Nat) a + S16x256.size a ≤ S16x256.size a
  h_S16x256 : 0 < S16x256.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x257.size a ≤ S2048x257.size a
  hwx0_0 : ∀ i : grid0.Coords, EltTy.bits .f32 = 32 ∨ (Rect.block (s := S2048x257) S16x257.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x257.size a ≤ S256x257.size a
  hwx0_1 : ∀ i : grid0.Coords, EltTy.bits .f32 = 32 ∨ (Rect.block (s := S256x257) S256x257.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x257.size a ≤ S256x257.size a
  hwx0_2 : ∀ i : grid0.Coords, EltTy.bits .f32 = 32 ∨ (Rect.block (s := S256x257) S256x257.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x256.size a ≤ S2048x256.size a
  hwx0_3 : ∀ i : grid0.Coords, EltTy.bits .f32 = 32 ∨ (Rect.block (s := S2048x256) S16x256.size (cc0_transform_3 i) (hinb0_3 i)).WholeWords (EltTy.packing .f32)

variable [Facts₀]

abbrev win0_0 : Pipeline.Window sig grid0 :=
  Pipeline.Window.ofSpec (Memref.whole main_v1) S16x257.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x257.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x257.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S16x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x256 : Shape := ⟨2, ![2048, 256]⟩
abbrev S256x257 : Shape := ⟨2, ![256, 257]⟩
abbrev S_ : Shape := ⟨0, ![]⟩
abbrev S2048x1 : Shape := ⟨2, ![2048, 1]⟩
abbrev S2048x257 : Shape := ⟨2, ![2048, 257]⟩
abbrev S1x256x257 : Shape := ⟨3, ![1, 256, 257]⟩
abbrev S2048x1x257 : Shape := ⟨3, ![2048, 1, 257]⟩
abbrev S2048x256x257 : Shape := ⟨3, ![2048, 256, 257]⟩

abbrev nBuf : Space → Nat
  | .hbm => 17
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x257, .f32⟩
  | .hbm, ⟨2, _⟩ => ⟨S256x257, .f32⟩
  | .hbm, ⟨3, _⟩ => ⟨S_, .f32⟩
  | .hbm, ⟨4, _⟩ => ⟨S2048x1, .f32⟩
  | .hbm, ⟨5, _⟩ => ⟨S2048x257, .f32⟩
  | .hbm, ⟨6, _⟩ => ⟨S1x256x257, .f32⟩
  | .hbm, ⟨7, _⟩ => ⟨S1x256x257, .f32⟩
  | .hbm, ⟨8, _⟩ => ⟨S2048x1x257, .f32⟩
  | .hbm, ⟨9, _⟩ => ⟨S2048x256x257, .f32⟩
  | .hbm, ⟨10, _⟩ => ⟨S2048x256x257, .f32⟩
  | .hbm, ⟨11, _⟩ => ⟨S2048x256x257, .f32⟩
  | .hbm, ⟨12, _⟩ => ⟨S2048x256x257, .f32⟩
  | .hbm, ⟨13, _⟩ => ⟨S2048x256x257, .f32⟩
  | .hbm, ⟨14, _⟩ => ⟨S2048x256x257, .f32⟩
  | .hbm, ⟨15, _⟩ => ⟨S_, .f32⟩
  | .hbm, ⟨16, _⟩ => ⟨S2048x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S_S2048x1 : S_.BroadcastsInDim S2048x1 (![] : Fin 0 → Fin S2048x1.rank)
  concatenates_S2048x256_S2048x1_S2048x257_d1 : Shape.Concatenates [S2048x256, S2048x1] S2048x257 1
  bcast_S256x257_S1x256x257_1_2 : S256x257.BroadcastsInDim S1x256x257 (![1, 2] : Fin 2 → Fin S1x256x257.rank)
  bcast_S2048x257_S2048x1x257_0_2 : S2048x257.BroadcastsInDim S2048x1x257 (![0, 2] : Fin 2 → Fin S2048x1x257.rank)
  bcast_S1x256x257_S2048x256x257_0_1_2 : S1x256x257.BroadcastsInDim S2048x256x257 (![0, 1, 2] : Fin 3 → Fin S2048x256x257.rank)
  bcast_S2048x1x257_S2048x256x257_0_1_2 : S2048x1x257.BroadcastsInDim S2048x256x257 (![0, 1, 2] : Fin 3 → Fin S2048x256x257.rank)
  reducesTo_S2048x256x257_S2048x256_d2 : S2048x256x257.ReducesTo [2] S2048x256
  h_S_ : 0 < S_.numel

variable [Facts₀]

class Facts : Prop extends Facts₀ where

variable [Facts]
-- ==== Proof.Spec.lean ====
/-
  The function both programs compute, stated once over literal shapes and with no program in sight.

  Write xe for the [2048, 257] array whose first 256 columns are x and whose last column is all ones,
  wt for the [256, 257] array `weight` and w for the [256, 257] array `w`. Entry (b, o) of the result is

      sum over k < 257 of  wt[o, k] * sin (w[o, k] * xe[b, k]),

  a sum of 257 extended reals. The two programs differ only in how they lay this sum out (the kernel
  takes sixteen rows b at a time, the reference all 2048 at once); term by term and factor by factor the
  summand is spelt the same way on both sides, so no law of the extended reals beyond re-indexing is used
  and the inputs' finiteness is never needed.
-/
import Idealize.ShloMosaic.PureOps.Ideal
import Idealize.ShloMosaic.Lib.ValueIdx

noncomputable section

open scoped BigOperators

namespace Cert.WeightedSine

open Idealize.ShloMosaic Idealize.ShloMosaic.ValueIdx

/-- One entry of the result from its row `b` of the extended input and its row `o` of the two tables:
    the sum over the 257 columns of `wt[o, k] * sin (w[o, k] * xe[b, k])`. -/
def entry (xe : (⟨2, ![2048, 257]⟩ : Shape).Idx → EReal) (wt w : (⟨2, ![256, 257]⟩ : Shape).Idx → EReal)
    (b : Fin 2048) (o : Fin 256) : EReal :=
  ∑ k : Fin 257, wt (ix2 o k) * Ideal.sin (w (ix2 o k) * xe (ix2 b k))

/-- The whole [2048, 256] result, index by index. -/
def weightedSine (xe : (⟨2, ![2048, 257]⟩ : Shape).Idx → EReal) (wt w : (⟨2, ![256, 257]⟩ : Shape).Idx → EReal) :
    (⟨2, ![2048, 256]⟩ : Shape).Idx → EReal :=
  fun j => entry xe wt w (j 0) (j 1)

theorem weightedSine_apply (xe : (⟨2, ![2048, 257]⟩ : Shape).Idx → EReal) (wt w : (⟨2, ![256, 257]⟩ : Shape).Idx → EReal)
    (b : Fin 2048) (o : Fin 256) : weightedSine xe wt w (ix2 b o) = entry xe wt w b o := rfl

end Cert.WeightedSine

end
-- ==== Proof.RefSide.lean ====
/-
  The reference's last stage is the specification.

  The reference broadcasts the three arrays to [2048, 256, 257], multiplies, takes the sine, multiplies
  again and sums over the last axis from the zero word. Read at an entry (b, o), each broadcast picks the
  operand's entry at the coordinates it keeps: `weight` and `w` at (o, k), the extended input at (b, k).
  The sum's starting value is the word 0, which is the real number 0, so the entry is the bare sum of the
  specification. The extended input (x with a column of ones appended) is left as the array it is: the
  kernel reads the very same array, so its entries are never opened.
-/
import proofs.«147788_j59313498358102_1_alg».proof.Proof.Gen.ReferenceIdeal.Read
import proofs.«147788_j59313498358102_1_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.WeightedSine

/-- Through the two broadcasts, entry (b, o, k) of the broadcast `weight` is `weight[o, k]`. -/
theorem idx_weight (i : S2048x256.Idx) (k : Fin 257) :
    idx_main_v2 (idx_main_v9 (idx_main_v11 i k)) = ix2 (i 1) k :=
  funext fun a => Fin.ext (by match a with | ⟨0, _⟩ => rfl | ⟨1, _⟩ => rfl)

/-- Through the two broadcasts, entry (b, o, k) of the broadcast `w` is `w[o, k]`. -/
theorem idx_w (i : S2048x256.Idx) (k : Fin 257) :
    idx_main_v3 (idx_main_v5 (idx_main_v11 i k)) = ix2 (i 1) k :=
  funext fun a => Fin.ext (by match a with | ⟨0, _⟩ => rfl | ⟨1, _⟩ => rfl)

/-- Through the two broadcasts, entry (b, o, k) of the broadcast extended input is its entry (b, k). -/
theorem idx_xe (i : S2048x256.Idx) (k : Fin 257) :
    idx_main_v4 (idx_main_v6 (idx_main_v11 i k)) = ix2 (i 0) k :=
  funext fun a => Fin.ext (by match a with | ⟨0, _⟩ => rfl | ⟨1, _⟩ => rfl)

/-- The reference's result stage, at the extended reals, is the specification of the extended input and
    the two tables. -/
theorem result_eq (x0 : (⟨S2048x256, .f32⟩ : BufTy).Contents (Elt Ideal)) (x1 x2 : (⟨S256x257, .f32⟩ : BufTy).Contents (Elt Ideal)) :
    val_main_v11 (F := Ideal) x0 x1 x2 = weightedSine (val_main_v1 (F := Ideal) x0) x1 x2 := by
  funext i
  rw [val_main_v11_apply]
  show Ideal.ofBits .f32 0x00000000#32 + _ = _
  rw [Ideal.ofBits_zero_f32, zero_add]
  unfold weightedSine entry
  refine Finset.sum_congr rfl fun k _ => ?_
  rw [val_main_v10_apply, val_main_v9_apply, val_main_v2_apply, val_main_v8_apply, val_main_v7_apply,
    val_main_v5_apply, val_main_v3_apply, val_main_v6_apply, val_main_v4_apply,
    idx_weight, idx_w, idx_xe]
  rfl

end Cert.ReferenceIdeal.RefValue

end
-- ==== Proof.Payload.lean ====
/-
  What the kernel body stores, read at one entry of its [16, 256] block.

  The body holds a [16, 257] block xb of the extended input and the two whole [256, 257] tables. It views
  each table as [1, 256, 257] and repeats it sixteen times along the leading axis, views xb as [16, 1, 257]
  and repeats it 256 times along the middle axis, multiplies, takes the sine, multiplies by the other
  table, and sums the last axis from the zero word. At entry (p, q) the repeated tables contribute their
  entries (q, k), the repeated block its entry (p, k), and the lane sum from zero is the bare sum over k:

      sum over k < 257 of  wt[q, k] * sin (w[q, k] * xb[p, k]).
-/
import proofs.«147788_j59313498358102_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen
open Idealize.ShloMosaic Idealize.ShloMosaic.ValueIdx

/-- A [256, 257] table given a leading unit axis and repeated sixteen times along it: entry (p, q, k) is
    the table's entry (q, k), whatever p is. -/
theorem table_repeated {α : Type} (v : S256x257.Idx → α) (p : Fin 16) (q : Fin 256) (k : Fin 257) :
    broadcastTo S16x256x257 (shapeCast S1x256x257 v shapeCasts_S256x257_S1x256x257)
      broadcasts_S1x256x257_S16x256x257 (ix3 p q k) = v (ix2 q k) := by
  refine (broadcastTo_apply _ broadcasts_S1x256x257_S16x256x257 (ix3 p q k) (ix3 (0 : Fin 1) q k) (fun a => ?_)).trans ?_
  · match a with
    | ⟨0, _⟩ => show (0 : Nat) = if (1 : Nat) = 1 then 0 else p.val; rw [if_pos rfl]
    | ⟨1, _⟩ => show q.val = if (256 : Nat) = 1 then 0 else q.val; rw [if_neg (by decide)]
    | ⟨2, _⟩ => show k.val = if (257 : Nat) = 1 then 0 else k.val; rw [if_neg (by decide)]
  · refine shapeCast_apply v shapeCasts_S256x257_S1x256x257 (ix3 (0 : Fin 1) q k) (ix2 q k) ?_
    rw [Shape.rowMajor_val_two, Shape.rowMajor_val_three]
    show q.val * 257 + k.val = ((0 : Nat) * 256 + q.val) * 257 + k.val
    omega

/-- A [16, 257] block given a middle unit axis and repeated 256 times along it: entry (p, q, k) is the
    block's entry (p, k), whatever q is. -/
theorem block_repeated {α : Type} (v : S16x257.Idx → α) (p : Fin 16) (q : Fin 256) (k : Fin 257) :
    broadcastTo S16x256x257 (shapeCast S16x1x257 (shapeCast S16x257 v shapeCasts_S16x257_S16x257) shapeCasts_S16x257_S16x1x257)
      broadcasts_S16x1x257_S16x256x257 (ix3 p q k) = v (ix2 p k) := by
  rw [shapeCast_self]
  refine (broadcastTo_apply _ broadcasts_S16x1x257_S16x256x257 (ix3 p q k) (ix3 p (0 : Fin 1) k) (fun a => ?_)).trans ?_
  · match a with
    | ⟨0, _⟩ => show p.val = if (16 : Nat) = 1 then 0 else p.val; rw [if_neg (by decide)]
    | ⟨1, _⟩ => show (0 : Nat) = if (1 : Nat) = 1 then 0 else q.val; rw [if_pos rfl]
    | ⟨2, _⟩ => show k.val = if (257 : Nat) = 1 then 0 else k.val; rw [if_neg (by decide)]
  · refine shapeCast_apply v shapeCasts_S16x257_S16x1x257 (ix3 p (0 : Fin 1) k) (ix2 p k) ?_
    rw [Shape.rowMajor_val_two, Shape.rowMajor_val_three]
    show p.val * 257 + k.val = (p.val * 1 + (0 : Nat)) * 257 + k.val
    omega

/-- The summed axis put back: entry (p, q) of the [16, 256] result with k inserted on the last axis is
    entry (p, q, k) of the [16, 256, 257] operand. -/
theorem lane_index (p : Fin 16) (q : Fin 256) (k : Fin 257) :
    reduces_S16x256x257_S16x256.lift (ix2 p q) k = ix3 p q k :=
  funext fun a => Fin.ext (by match a with | ⟨0, _⟩ => rfl | ⟨1, _⟩ => rfl | ⟨2, _⟩ => rfl)

/-- A sum over the last axis of a [16, 256, 257] array from the zero word, read at entry (p, q) at the
    extended reals: the bare sum over k of the array's entries (p, q, k). -/
theorem lane_sum (src : FVec Ideal S16x256x257 .f32) (p : Fin 16) (q : Fin 256) :
    multiReduction .add [2] S16x256 src 0x00000000#32 reduces_S16x256x257_S16x256 (.inl rfl) rfl (ix2 p q)
      = ∑ k : Fin 257, src (ix3 p q k) :=
  (Ideal.multiReduction_add_single src 0x00000000#32 reduces_S16x256x257_S16x256 (.inl rfl) rfl (ix2 p q)).trans
    (Finset.sum_congr rfl fun k _ => congrArg src (lane_index p q k))

/-- The stored value at entry (p, q) of the block, at the extended reals: the sum over the 257 columns of
    `wt[q, k] * sin (w[q, k] * xb[p, k])`, where `xb` is the body's first load, `wt` its second and `w` its third. -/
theorem stored_apply (xb : Vec Ideal S16x257 .f32) (wt w : Vec Ideal S256x257 .f32) (p : Fin 16) (q : Fin 256) :
    k0_pay1 (F := Ideal) xb wt w (ix2 p q) = ∑ k : Fin 257, wt (ix2 q k) * Ideal.sin (w (ix2 q k) * xb (ix2 p k)) := by
  unfold k0_pay1
  refine (lane_sum _ p q).trans ?_
  refine Finset.sum_congr rfl fun k _ => ?_
  show broadcastTo S16x256x257 (shapeCast S1x256x257 wt shapeCasts_S256x257_S1x256x257) broadcasts_S1x256x257_S16x256x257 (ix3 p q k)
      * Ideal.sin (broadcastTo S16x256x257 (shapeCast S1x256x257 w shapeCasts_S256x257_S1x256x257) broadcasts_S1x256x257_S16x256x257 (ix3 p q k)
        * broadcastTo S16x256x257 (shapeCast S16x1x257 (shapeCast S16x257 xb shapeCasts_S16x257_S16x257) shapeCasts_S16x257_S16x1x257)
            broadcasts_S16x1x257_S16x256x257 (ix3 p q k)) = _
  rw [table_repeated, table_repeated, block_repeated]

end Cert.KernelIdeal.Body

end
-- ==== Proof.WholeArray.lean ====
/-
  From the sixteen-row blocks to the whole result array.

  The grid has 128 points. At point t the kernel is handed rows 16 t .. 16 t + 15 of the extended input
  (all 257 columns) and the two whole [256, 257] tables, the same at every point, and writes rows
  16 t .. 16 t + 15 of the [2048, 256] result (all 256 columns). Entry (p, q) of what point t writes is
  the body's stored value on those blocks, which is the specification's entry (16 t + p, q) of the arrays
  the blocks were cut from. Every row b of the result lies in the block of exactly the point b / 16, so
  the 128 blocks fill the array and the array ends holding the specification everywhere.

  The extended input is the array the host operations before the call leave: x with a column holding the
  word of 1.0 appended. It is named here as that operations' term and not opened further.
-/
import proofs.«147788_j59313498358102_1_alg».proof.Proof.Gen.KernelIdeal.Value
import proofs.«147788_j59313498358102_1_alg».proof.Proof.Payload
import proofs.«147788_j59313498358102_1_alg».proof.Proof.Spec
import Idealize.ShloMosaic.Lib.Pipeline.Value
import Idealize.ShloMosaic.Lib.StableHlo.Run
import Idealize.ShloMosaic.Lib.Tactic

noncomputable section

open scoped BigOperators

namespace Cert.KernelIdeal.Whole

open Cert.KernelIdeal Cert.KernelIdeal.Gen Cert.KernelIdeal.Value Cert.KernelIdeal.Body
open Idealize.ShloMosaic Idealize.ShloMosaic.TcCoe Idealize.ShloMosaic.ValueIdx Idealize.SL.Sem
open Idealize.ShloMosaic.Pipeline (Dat)
open Cert.WeightedSine

variable (m : (ℓ : Loc nD τ sig) → Buf (Elt Ideal) ℓ) (ρ : Dev nD → PrngReg)

theorem origin : (![0, 0] : Fin 2 → Nat) = fun _ => 0 := funext fun a => by fin_cases a <;> rfl

/-- The block index of each window at each of the 128 points: the input block and the output block are
    both block t of their rows and the only block of their columns; the two tables are one block. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One stored entry is one entry of the specification, for ANY blocks and arrays related row by row:
    if row (y 0) of the input block is row (i 0) of the extended input and row (y 1) of each table block is
    row (i 1) of that table, the stored value at y is the specification at i. -/
theorem stored_is_spec (xe : S2048x257.Idx → EReal) (wt w : S256x257.Idx → EReal)
    (xb : Vec Ideal S16x257 .f32) (wtb wb : Vec Ideal S256x257 .f32) (y : S16x256.Idx) (i : S2048x256.Idx)
    (hx : ∀ k : Fin 257, xb (ix2 (y 0) k) = xe (ix2 (i 0) k))
    (hwt : ∀ k : Fin 257, wtb (ix2 (y 1) k) = wt (ix2 (i 1) k))
    (hw : ∀ k : Fin 257, wb (ix2 (y 1) k) = w (ix2 (i 1) k)) :
    k0_pay1 (F := Ideal) xb wtb wb y = weightedSine xe wt w i := by
  obtain ⟨p, q, rfl⟩ : ∃ (p : Fin 16) (q : Fin 256), y = ix2 p q := ⟨y 0, y 1, eq_ix2 y⟩
  rw [stored_apply]
  unfold weightedSine entry
  exact Finset.sum_congr rfl fun k _ => by rw [hx, hwt, hw]

/-- What point t writes back is block t of the specification of the arrays as the call finds them. -/
theorem flushed_eq (c : Dev nD) (t : Fin cfg0.N) :
    (dats m 0 c).flushed 3 t
      = ((cfg0.win 3).blk t).view.read (Elt Ideal) (weightedSine (V m c main_v1) (V m c main_arg1) (V m c main_arg2)) := by
  rw [flushed3]
  unfold out0_3
  rw [View.canon_unit_zero origin]
  simp only [View.ld_unit_zero (S := S16x257) origin, View.ld_unit_zero (S := S256x257) origin]
  obtain ⟨e00, e01, e10, e11, e20, e21, e30, e31⟩ := block_indices t
  funext y
  show k0_pay1 (F := Ideal) (iblk m c 0 t) (iblk m c 1 t) (iblk m c 2 t) y
      = weightedSine (V m c main_v1) (V m c main_arg1) (V m c main_arg2) (((cfg0.win 3).blk t).view.emb y)
  refine stored_is_spec (V m c main_v1) (V m c main_arg1) (V m c main_arg2) (iblk m c 0 t) (iblk m c 1 t) (iblk m c 2 t) y
    (((cfg0.win 3).blk t).view.emb y) (fun k => ?_) (fun k => ?_) (fun k => ?_)
  · show V m c main_v1 (((cfg0.win 0).blk t).view.emb (ix2 (y 0) k)) = V m c main_v1 (ix2 ((((cfg0.win 3).blk t).view.emb y) 0) k)
    refine congrArg (V m c main_v1) (funext fun a => Fin.ext ?_)
    match a with
    | ⟨0, _⟩ => show win0_0.index t (0 : Fin 2) * 16 + 1 * (y 0).val = win0_3.index t (0 : Fin 2) * 16 + 1 * (y 0).val; omega
    | ⟨1, _⟩ => show win0_0.index t (1 : Fin 2) * 257 + 1 * k.val = k.val; omega
  · show V m c main_arg1 (((cfg0.win 1).blk t).view.emb (ix2 (y 1) k)) = V m c main_arg1 (ix2 ((((cfg0.win 3).blk t).view.emb y) 1) k)
    refine congrArg (V m c main_arg1) (funext fun a => Fin.ext ?_)
    match a with
    | ⟨0, _⟩ => show win0_1.index t (0 : Fin 2) * 256 + 1 * (y 1).val = win0_3.index t (1 : Fin 2) * 256 + 1 * (y 1).val; omega
    | ⟨1, _⟩ => show win0_1.index t (1 : Fin 2) * 257 + 1 * k.val = k.val; omega
  · show V m c main_arg2 (((cfg0.win 2).blk t).view.emb (ix2 (y 1) k)) = V m c main_arg2 (ix2 ((((cfg0.win 3).blk t).view.emb y) 1) k)
    refine congrArg (V m c main_arg2) (funext fun a => Fin.ext ?_)
    match a with
    | ⟨0, _⟩ => show win0_2.index t (0 : Fin 2) * 256 + 1 * (y 1).val = win0_3.index t (1 : Fin 2) * 256 + 1 * (y 1).val; omega
    | ⟨1, _⟩ => show win0_2.index t (1 : Fin 2) * 257 + 1 * k.val = k.val; omega

/-- An entry of the result lies in point t's block exactly when each coordinate lies in the block's range. -/
theorem mem_block (t : Fin cfg0.N) (i : S2048x256.Idx) :
    i ∈ ((cfg0.win 3).blk t).view.set ↔ ∀ a : Fin 2, win0_3.index t a * S16x256.size a ≤ (i a).val ∧ (i a).val < win0_3.index t a * S16x256.size a + S16x256.size a := by
  show i ∈ ((View.whole main_v2).slice (win0_3.rect t)).set ↔ _
  rw [View.set_slice_whole, Rect.mem_set_unit]
  exact Iff.rfl

/-- Every entry (b, o) of the result lies in the block of the point b / 16, which writes back. -/
theorem covered (i : S2048x256.Idx) :
    ∃ t : Fin cfg0.N, (cfg0.win 3).flush t = true ∧ i ∈ ((cfg0.win 3).blk t).view.set := by
  have hb : (i 0).val < 2048 := (i 0).isLt
  have ho : (i 1).val < 256 := (i 1).isLt
  have hN : cfg0.N = 128 := N_0
  have ht : (i 0).val / 16 < cfg0.N := by rw [hN]; omega
  obtain ⟨-, -, -, -, -, -, e30, e31⟩ := block_indices ⟨(i 0).val / 16, ht⟩
  refine ⟨⟨(i 0).val / 16, ht⟩, flush0_3 _, ?_⟩
  rw [mem_block]
  intro a
  match a with
  | ⟨0, _⟩ =>
    show win0_3.index ⟨(i 0).val / 16, ht⟩ (0 : Fin 2) * 16 ≤ (i 0).val ∧ (i 0).val < win0_3.index ⟨(i 0).val / 16, ht⟩ (0 : Fin 2) * 16 + 16
    rw [e30]; show (i 0).val / 16 * 16 ≤ (i 0).val ∧ (i 0).val < (i 0).val / 16 * 16 + 16; omega
  | ⟨1, _⟩ =>
    show win0_3.index ⟨(i 0).val / 16, ht⟩ (1 : Fin 2) * 256 ≤ (i 1).val ∧ (i 1).val < win0_3.index ⟨(i 0).val / 16, ht⟩ (1 : Fin 2) * 256 + 256
    rw [e31]; omega

/-- The array the host operations before the call leave in the kernel's first operand: x with a column
    of the word of 1.0 appended. -/
abbrev extended (x : S2048x256.Idx → EReal) : S2048x257.Idx → EReal :=
  concatenate S2048x257 1 [⟨S2048x256, x⟩, ⟨S2048x1, broadcastInDim S2048x1 ![] bcast_S_S2048x1 (constant (F := Ideal) S_ .f32 0x3F800000#32)⟩]
    concatenates_S2048x256_S2048x1_S2048x257_d1

theorem operand_eq (c : Dev nD) :
    (V m c main_v1 : S2048x257.Idx → EReal) = extended (m ((c : Thread nD τ).loc main_arg0)) := by
  dsimp only [V, hostOps0]
  after_results

/-- The result array after the run is the specification of the extended input and the two tables as launched. -/
theorem final (c : Dev nD) :
    (dats m 0 c).arrAt 3 cfg0.N
      = weightedSine (extended (m ((c : Thread nD τ).loc main_arg0))) (m ((c : Thread nD τ).loc main_arg1)) (m ((c : Thread nD τ).loc main_arg2)) := by
  rw [← operand_eq m c, ← V_main_arg1 m c, ← V_main_arg2 m c]
  exact (dats m 0 c).arrAt_eq_of_cover 3 _ (fun t _ => flushed_eq m c t) covered

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v2)
        = weightedSine (extended (m ((c : Thread nD τ).loc main_arg0))) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (run_blocks m ρ)

end Cert.KernelIdeal.Whole

end
-- ==== Proof.lean ====
/-
  A weighted sum of sines, sixteen rows at a time, against the same sum taken all at once.

  Inputs: x of shape [2048, 256] and two tables, `weight` and `w`, of shape [256, 257]. Both programs first
  append a column of ones to x, giving xe of shape [2048, 257], and then compute

      out[b, o] = sum over k < 257 of  weight[o, k] * sin (w[o, k] * xe[b, k]).

  The kernel walks a grid of 128 points; at point t it holds rows 16 t .. 16 t + 15 of xe and both whole
  tables, forms the [16, 256, 257] array of summands by repeating the tables along the rows and the rows
  along the tables, and sums the last axis from zero into rows 16 t .. 16 t + 15 of the result. The
  reference forms the whole [2048, 256, 257] array of summands the same way and sums its last axis from
  zero. At the extended reals the sine of a kernel and the sine of the host are one function, a sum from
  the zero word is the bare sum, and every product is written with its factors in the same order on both
  sides, so the two results agree entry by entry with no algebra at all: the proof only re-indexes. The
  inputs' finiteness is not used.

  The pieces: the common function (Proof/Spec.lean); the reference's last stage is that function
  (Proof/RefSide.lean); the kernel body's stored value at one entry (Proof/Payload.lean); the 128 blocks
  fill the result array with that function (Proof/WholeArray.lean). The three frames are the generated
  ones, the reference's being its generated run with the result dropped; the idealization rewrote no
  operation, so there is nothing to preserve.
-/
import proofs.«147788_j59313498358102_1_alg».proof.Defs
import proofs.«147788_j59313498358102_1_alg».proof.Proof.Gen.Kernel
import proofs.«147788_j59313498358102_1_alg».proof.Proof.Gen.Kernel.Skeleton
import proofs.«147788_j59313498358102_1_alg».proof.Proof.Gen.Kernel.Launch
import proofs.«147788_j59313498358102_1_alg».proof.Proof.Gen.Kernel.Points
import proofs.«147788_j59313498358102_1_alg».proof.Proof.Gen.Kernel.Frame
import proofs.«147788_j59313498358102_1_alg».proof.Proof.Gen.KernelIdeal
import proofs.«147788_j59313498358102_1_alg».proof.Proof.Gen.KernelIdeal.Skeleton
import proofs.«147788_j59313498358102_1_alg».proof.Proof.Gen.KernelIdeal.Launch
import proofs.«147788_j59313498358102_1_alg».proof.Proof.Gen.KernelIdeal.Points
import proofs.«147788_j59313498358102_1_alg».proof.Proof.Gen.KernelIdeal.Frame
import proofs.«147788_j59313498358102_1_alg».proof.Proof.Gen.ReferenceIdeal
import proofs.«147788_j59313498358102_1_alg».proof.Proof.Gen.Pre_finite_inputs
import proofs.«147788_j59313498358102_1_alg».proof.Proof.Gen.KernelIdeal.Value
import proofs.«147788_j59313498358102_1_alg».proof.Proof.Gen.ReferenceIdeal.Run
import proofs.«147788_j59313498358102_1_alg».proof.Proof.Gen.ReferenceIdeal.Read
import proofs.«147788_j59313498358102_1_alg».proof.Proof.RefSide
import proofs.«147788_j59313498358102_1_alg».proof.Proof.WholeArray
import Idealize.ShloMosaic.Adequacy
import Idealize.ShloMosaic.Init

noncomputable section

namespace Cert.Proof

open Idealize.ShloMosaic Idealize.SL.Sem

/-- The word-level kernel runs, faults nowhere and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference is host operations only: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on x and the two tables, the kernel's result array and the reference's
    both end at the weighted sum of sines of x with its column of ones and the two tables. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.result_eq,
    (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
